-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S256x512 : Shape := ⟨2, ![256, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  main_v18

def fn {F : FTy → Type} [FloatOps F] (main_arg0 : FVec F S2048x512 .f32) (main_arg1 : FVec F S256x512 .f32) (main_arg2 : FVec F S256x512 .f32) (main_arg3 : FVec F S256x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_v13 main_v16
-- ==== Kernel.lean ====
abbrev S2048x512 : Shape := ⟨2, ![2048, 512]⟩
abbrev S256x512 : Shape := ⟨2, ![256, 512]⟩
abbrev S512x512 : Shape := ⟨2, ![512, 512]⟩
abbrev S256 : Shape := ⟨1, ![256]⟩
abbrev S1x256 : Shape := ⟨2, ![1, 256]⟩
abbrev S512x256 : Shape := ⟨2, ![512, 256]⟩

abbrev nBuf : Space → Nat
  | .hbm => 5
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S512x512, .f32⟩
  | .local _ .vmem, ⟨6, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S512x512_S512x512_0_0 : ∀ a, (![0, 0] : Fin 2 → Nat) a + S512x512.size a ≤ S512x512.size a
  h_S512x512 : 0 < S512x512.numel
  inb_S256x512_S256x512_0_0 : ∀ a, (![0, 0] : Fin 2 → Nat) a + S256x512.size a ≤ S256x512.size a
  h_S256x512 : 0 < S256x512.numel
  reduces_S256x512_S256 : S256x512.Reduces [1] S256
  shapeCasts_S256_S1x256 : S256.ShapeCasts S1x256
  bitsLt_bf16_f32 : FTy.bits .bf16 < FTy.bits .f32
  broadcasts_S1x256_S512x256 : S1x256.Broadcasts S512x256
  dot_S512x512_S256x512_S512x256_1_1_0_0_n_n_wf : DotDims.WF S512x512 S256x512 S512x256 [1] [1] [0] [0] [] []
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x512.size a
  hwx0_0 : ∀ i : grid0.Coords, EltTy.bits .f32 = 32 ∨ (Rect.block (s := S2048x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S2048x512.size a
  hwx0_4 : ∀ i : grid0.Coords, EltTy.bits .f32 = 32 ∨ (Rect.block (s := S2048x512) S512x512.size (cc0_transform_4 i) (hinb0_4 i)).WholeWords (EltTy.packing .f32)

variable [Facts₀]

def dot_S512x512_S256x512_S512x256_1_1_0_0_n_n : DotDims S512x512 S256x512 S512x256 where
  lhsContracting := [1]
  rhsContracting := [1]
  lhsNonContracting := [0]
  rhsNonContracting := [0]
  lhsBatch := []
  rhsBatch := []
  wf := dot_S512x512_S256x512_S512x256_1_1_0_0_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x512 : Shape := ⟨2, ![2048, 512]⟩
abbrev S256x512 : Shape := ⟨2, ![256, 512]⟩
abbrev S2048x1x512 : Shape := ⟨3, ![2048, 1, 512]⟩
abbrev S1x256x512 : Shape := ⟨3, ![1, 256, 512]⟩
abbrev S2048x256x512 : Shape := ⟨3, ![2048, 256, 512]⟩
abbrev S_ : Shape := ⟨0, ![]⟩
abbrev S2048x256 : Shape := ⟨2, ![2048, 256]⟩

abbrev nBuf : Space → Nat
  | .hbm => 40
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S2048x1x512, .f32⟩
  | .hbm, ⟨5, _⟩ => ⟨S1x256x512, .f32⟩
  | .hbm, ⟨6, _⟩ => ⟨S2048x256x512, .f32⟩
  | .hbm, ⟨7, _⟩ => ⟨S2048x256x512, .f32⟩
  | .hbm, ⟨8, _⟩ => ⟨S2048x256x512, .f32⟩
  | .hbm, ⟨9, _⟩ => ⟨S2048x256x512, .f32⟩
  | .hbm, ⟨10, _⟩ => ⟨S1x256x512, .f32⟩
  | .hbm, ⟨11, _⟩ => ⟨S2048x256x512, .f32⟩
  | .hbm, ⟨12, _⟩ => ⟨S2048x256x512, .f32⟩
  | .hbm, ⟨13, _⟩ => ⟨S_, .f32⟩
  | .hbm, ⟨14, _⟩ => ⟨S2048x256, .f32⟩
  | .hbm, ⟨15, _⟩ => ⟨S_, .f32⟩
  | .hbm, ⟨16, _⟩ => ⟨S2048x256, .f32⟩
  | .hbm, ⟨17, _⟩ => ⟨S2048x256, .f32⟩
  | .hbm, ⟨18, _⟩ => ⟨S2048x256, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S256x512, .f32⟩
  | .hbm, ⟨23, _⟩ => ⟨S256x512, .f32⟩
  | .hbm, ⟨24, _⟩ => ⟨S256x512, .i1⟩
  | .hbm, ⟨25, _⟩ => ⟨S256x512, .f32⟩
  | .hbm, ⟨26, _⟩ => ⟨S256x512, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S256x512, .f32⟩
  | .hbm, ⟨31, _⟩ => ⟨S256x512, .f32⟩
  | .hbm, ⟨32, _⟩ => ⟨S256x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]

class Facts₀ : Prop where
  bcast_S2048x512_S2048x1x512_0_2 : S2048x512.BroadcastsInDim S2048x1x512 (![0, 2] : Fin 2 → Fin S2048x1x512.rank)
  bcast_S256x512_S1x256x512_1_2 : S256x512.BroadcastsInDim S1x256x512 (![1, 2] : Fin 2 → Fin S1x256x512.rank)
  bcast_S2048x1x512_S2048x256x512_0_1_2 : S2048x1x512.BroadcastsInDim S2048x256x512 (![0, 1, 2] : Fin 3 → Fin S2048x256x512.rank)
  bcast_S1x256x512_S2048x256x512_0_1_2 : S1x256x512.BroadcastsInDim S2048x256x512 (![0, 1, 2] : Fin 3 → Fin S2048x256x512.rank)
  reducesTo_S2048x256x512_S2048x256_d2 : S2048x256x512.ReducesTo [2] S2048x256
  h_S_ : 0 < S_.numel
  bcast_S_S2048x256 : S_.BroadcastsInDim S2048x256 (![] : Fin 0 → Fin S2048x256.rank)
  bcast_S_S256x512 : S_.BroadcastsInDim S256x512 (![] : Fin 0 → Fin S256x512.rank)
  bcast_S_S2048x512 : S_.BroadcastsInDim S2048x512 (![] : Fin 0 → Fin S2048x512.rank)
  dot_S2048x256_S256x512_S2048x512_1_0_0_1_n_n_wf : DotDims.WF S2048x256 S256x512 S2048x512 [1] [0] [0] [1] [] []

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

class Facts : Prop extends Facts₀ where

variable [Facts]
-- ==== Proof.Spec.lean ====
/-
  The mathematics both programs compute, stated once over plain index functions, and the one law that joins them.

  For a row `xr` of the input (512 features), centres `c`, bandwidths `bw` and raw weights `w` (each 256 × 512):
    dist k   = ∑_d bw[k,d] · (xr[d] − c[k,d])²                      (the squared distance, as the reference sums it)
             = ∑_d xr[d]²·bw[k,d] − 2·∑_d xr[d]·(c[k,d]·bw[k,d]) + ∑_d c[k,d]²·bw[k,d]   (the square expanded, as the kernel sums it)
    out q    = 1 / ( ∑_k exp(−½ · dist k) · softplus(w[k,q]) + ε ).
  The two forms of `dist` agree whenever every entry is a real number: over ℝ it is the binomial square, term by term,
  and a finite sum of reals is a real. On the extended reals the expansion is false at infinities (a difference of two
  infinite sums), which is why the entries' finiteness is a hypothesis of the law.
-/
import Idealize.ShloMosaic.PureOps.Ideal
import Idealize.ShloMosaic.PureOps.Ideal.Laws
import Idealize.ShloMosaic.Lib.ValueIdx

noncomputable section

namespace Cert.RbfSpec

open Idealize.ShloMosaic Idealize.ShloMosaic.ValueIdx
open scoped BigOperators

/-- The parameter arrays' shape: 256 centres of 512 features. -/
abbrev SKD : Shape := ⟨2, ![256, 512]⟩
/-- The input's and the result's shape: 2048 rows of 512 features. -/
abbrev SBD : Shape := ⟨2, ![2048, 512]⟩

/-- The float words both programs spell, read as extended reals: 0, 2, −½, 10⁻³ (as f32 rounds it) and 1. -/
abbrev zero : EReal := Ideal.ofBits .f32 0x00000000#32
abbrev two : EReal := Ideal.ofBits .f32 0x40000000#32
abbrev mhalf : EReal := Ideal.ofBits .f32 0xBF000000#32
abbrev eps : EReal := Ideal.ofBits .f32 0x3A83126F#32
abbrev one : EReal := Ideal.ofBits .f32 0x3F800000#32

theorem zero_eq : zero = 0 := Ideal.ofBits_zero_f32

/-- The word `0x40000000` is the real number two. -/
theorem two_eq : two = ((2 : ℝ) : EReal) := by
  simp [two, Ideal.ofBits, Ideal.ieee, -EReal.coe_mul]; norm_num

/-- `softplus w = log(1 + eˣ)` in the numerically stable form both programs use, `max w 0 + log1p(exp(−|w − 0|))`, with
    the guard `w − 0 ≠ w − 0` (never taken on the extended reals) in front. -/
def softplus (w : EReal) : EReal :=
  Scalar.select (Ideal.cmp .one (w - zero) (w - zero)) (w + zero)
    (max w zero + Ideal.log1p (Ideal.exp (zero - max (w - zero) (-(w - zero)))))

/-- The same with the negation spelt `−a` instead of `0 − a` and the guard's predicate spelt "unordered or unequal":
    on the extended reals both spellings are the same function. -/
theorem softplus_neg_form (w : EReal) :
    Scalar.select (Ideal.cmp .une (w - zero) (w - zero)) (w + zero)
      (max w zero + Ideal.log1p (Ideal.exp (-(max (w - zero) (-(w - zero)))))) = softplus w := by
  unfold softplus
  rw [show zero - max (w - zero) (-(w - zero)) = -(max (w - zero) (-(w - zero))) by rw [zero_eq, zero_sub]]
  rfl

/-- The squared distance with the square expanded: three sums over the features. -/
def distK (xr : Fin 512 → EReal) (c bw : SKD.Idx → EReal) (k : Fin 256) : EReal :=
  ((∑ d : Fin 512, (xr d * xr d) * bw (ix2 k d)) - two * ∑ d : Fin 512, xr d * (c (ix2 k d) * bw (ix2 k d)))
    + ∑ d : Fin 512, (c (ix2 k d) * c (ix2 k d)) * bw (ix2 k d)

/-- The squared distance as one sum of bandwidth-weighted squared differences (from the initial value zero). -/
def distR (xr : Fin 512 → EReal) (c bw : SKD.Idx → EReal) (k : Fin 256) : EReal :=
  zero + ∑ d : Fin 512, ((xr d - c (ix2 k d)) * (xr d - c (ix2 k d))) * bw (ix2 k d)

/-- One entry of the result from a row's distances: the reciprocal of the kernel-weighted sum of softplus weights plus ε. -/
def outOf (dist : Fin 256 → EReal) (w : SKD.Idx → EReal) (q : Fin 512) : EReal :=
  Ideal.div one ((∑ k : Fin 256, Ideal.exp (mhalf * dist k) * softplus (w (ix2 k q))) + eps)

/-- The whole result with the expanded distance, … -/
def GK (x : SBD.Idx → EReal) (c bw w : SKD.Idx → EReal) : SBD.Idx → EReal :=
  fun i => outOf (distK (fun d => x (ix2 (⟨(i 0).val, (i 0).isLt⟩ : Fin 2048) d)) c bw) w ⟨(i 1).val, (i 1).isLt⟩

/-- … and with the distance as one sum. -/
def GR (x : SBD.Idx → EReal) (c bw w : SKD.Idx → EReal) : SBD.Idx → EReal :=
  fun i => outOf (distR (fun d => x (ix2 (⟨(i 0).val, (i 0).isLt⟩ : Fin 2048) d)) c bw) w ⟨(i 1).val, (i 1).isLt⟩

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW. On real entries the expanded distance is the distance: `(x − c)²·b = x²·b − 2·x·(c·b) + c²·b` term by term,
    and the three sums of reals recombine. -/
theorem distK_eq_distR (xr : Fin 512 → EReal) (c bw : SKD.Idx → EReal) (k : Fin 256)
    (hx : ∀ d, ∃ r : ℝ, xr d = (r : EReal)) (hc : ∀ i, ∃ r : ℝ, c i = (r : EReal)) (hb : ∀ i, ∃ r : ℝ, bw i = (r : EReal)) :
    distK xr c bw k = distR xr c bw k := by
  choose xf hxf using hx
  choose cf hcf using hc
  choose bf hbf using hb
  unfold distK distR
  simp only [hxf, hcf, hbf, zero_eq, two_eq, ← EReal.coe_mul, ← EReal.coe_sub, ← coe_sum, ← EReal.coe_add, ← EReal.coe_zero]
  refine congrArg _ ?_
  rw [zero_add, Finset.mul_sum, ← Finset.sum_sub_distrib, ← Finset.sum_add_distrib]
  exact Finset.sum_congr rfl fun d _ => by ring

/-- So on real entries the two whole-array functions are one. -/
theorem GK_eq_GR (x : SBD.Idx → EReal) (c bw w : SKD.Idx → EReal)
    (hx : ∀ i, ∃ r : ℝ, x i = (r : EReal)) (hc : ∀ i, ∃ r : ℝ, c i = (r : EReal)) (hb : ∀ i, ∃ r : ℝ, bw i = (r : EReal)) :
    GK x c bw w = GR x c bw w := by
  funext i
  unfold GK GR outOf
  refine congrArg (fun s => Ideal.div one (s + eps)) (Finset.sum_congr rfl fun k _ => ?_)
  rw [distK_eq_distR _ c bw k (fun d => hx _) hc hb]

end Cert.RbfSpec

end
-- ==== Proof.BodyValue.lean ====
/-
  The kernel body's arithmetic at one index of its 512 × 512 output block.

  With `x0` the block of input rows and `x1`, `x2`, `x3` the centres, bandwidths and raw weights, entry (p, q) of what the
  body stores is
      1 / ( ∑_k exp(−½ · dist p k) · softplus(x3[k,q]) + ε ),
  where `dist p k` is the EXPANDED squared distance: the first matrix product gives ∑_d x0[p,d]²·x2[k,d], the second
  ∑_d x0[p,d]·(x1[k,d]·x2[k,d]), and the row sum ∑_d x1[k,d]²·x2[k,d] is broadcast down the rows. The roundings to bf16 in
  front of the three matrix products are the identity on extended reals, so nothing of them remains. Each matrix product
  into a zero accumulator is a plain sum over its one contracted axis; the contraction index is re-indexed by its single
  coordinate.
-/
import proofs.«160673_j28097676050903_1_alg».proof.Proof.Gen.KernelIdeal.Skeleton
import proofs.«160673_j28097676050903_1_alg».proof.Proof.Spec
import Idealize.ShloMosaic.Lib.ValueLayout
import Idealize.ShloMosaic.Lib.ValueIdx
import Idealize.ShloMosaic.PureOps.Ideal.Laws

noncomputable section

namespace Cert.KernelIdeal.BodyValue

open Cert.KernelIdeal Cert.KernelIdeal.Gen Cert.RbfSpec
open Idealize.ShloMosaic Idealize.ShloMosaic.ValueIdx
open scoped BigOperators

/-! ## The contraction over the features: [512, 512] × [256, 512] → [512, 256], axis 1 against axis 1 -/

theorem lhs_feat_0 (j : S512x256.Idx) (q : dot_S512x512_S256x512_S512x256_1_1_0_0_n_n.contr.Idx) :
    (dot_S512x512_S256x512_S512x256_1_1_0_0_n_n.lhsIdx j q 0).val = (j 0).val := by
  unfold DotDims.lhsIdx
  rw [dif_neg (show ¬(0 : Fin S512x512.rank) ∈ dot_S512x512_S256x512_S512x256_1_1_0_0_n_n.lhsBatch by decide), dif_pos (show (0 : Fin S512x512.rank) ∈ dot_S512x512_S256x512_S512x256_1_1_0_0_n_n.lhsNonContracting by decide)]
  rfl
theorem lhs_feat_1 (j : S512x256.Idx) (q : dot_S512x512_S256x512_S512x256_1_1_0_0_n_n.contr.Idx) :
    (dot_S512x512_S256x512_S512x256_1_1_0_0_n_n.lhsIdx j q 1).val = (q ⟨0, by decide⟩).val :=
  dot_S512x512_S256x512_S512x256_1_1_0_0_n_n.lhsIdx_val_of_single rfl j q
theorem rhs_feat_0 (j : S512x256.Idx) (q : dot_S512x512_S256x512_S512x256_1_1_0_0_n_n.contr.Idx) :
    (dot_S512x512_S256x512_S512x256_1_1_0_0_n_n.rhsIdx j q 0).val = (j 1).val := by
  unfold DotDims.rhsIdx
  rw [dif_neg (show ¬(0 : Fin S256x512.rank) ∈ dot_S512x512_S256x512_S512x256_1_1_0_0_n_n.rhsBatch by decide), dif_pos (show (0 : Fin S256x512.rank) ∈ dot_S512x512_S256x512_S512x256_1_1_0_0_n_n.rhsNonContracting by decide)]
  rfl
theorem rhs_feat_1 (j : S512x256.Idx) (q : dot_S512x512_S256x512_S512x256_1_1_0_0_n_n.contr.Idx) :
    (dot_S512x512_S256x512_S512x256_1_1_0_0_n_n.rhsIdx j q 1).val = (q ⟨0, by decide⟩).val :=
  dot_S512x512_S256x512_S512x256_1_1_0_0_n_n.rhsIdx_val_of_single rfl j q

/-- Entry (p, k) of a features contraction into zero is the sum over the 512 features of row p of the left operand
    times row k of the right. -/
theorem featDot_apply (l : FVec Ideal S512x512 .bf16) (r : FVec Ideal S256x512 .bf16) (p : Fin 512) (k : Fin 256) :
    matmul dot_S512x512_S256x512_S512x256_1_1_0_0_n_n none l r (constant S512x256 .f32 0x00000000#32) (ix2 p k)
      = ∑ d : Fin 512, l (ix2 p d) * r (ix2 k d) := by
  refine (Ideal.matmul_constant_zero_apply dot_S512x512_S256x512_S512x256_1_1_0_0_n_n none l r (ix2 p k)).trans ?_
  rw [← Equiv.sum_comp (contrEquiv1 dot_S512x512_S256x512_S512x256_1_1_0_0_n_n 512 rfl rfl).symm]
  refine Finset.sum_congr rfl fun d _ => ?_
  have hd := contrEquiv1_symm_val dot_S512x512_S256x512_S512x256_1_1_0_0_n_n 512 rfl rfl d
  have el : dot_S512x512_S256x512_S512x256_1_1_0_0_n_n.lhsIdx (ix2 p k) ((contrEquiv1 dot_S512x512_S256x512_S512x256_1_1_0_0_n_n 512 rfl rfl).symm d) = ix2 p d := funext fun a => Fin.ext (by
    match a with
    | ⟨0, _⟩ => exact lhs_feat_0 _ _
    | ⟨1, _⟩ => exact (lhs_feat_1 _ _).trans hd)
  have er : dot_S512x512_S256x512_S512x256_1_1_0_0_n_n.rhsIdx (ix2 p k) ((contrEquiv1 dot_S512x512_S256x512_S512x256_1_1_0_0_n_n 512 rfl rfl).symm d) = ix2 k d := funext fun a => Fin.ext (by
    match a with
    | ⟨0, _⟩ => exact rhs_feat_0 _ _
    | ⟨1, _⟩ => exact (rhs_feat_1 _ _).trans hd)
  rw [el, er]

/-! ## The contraction over the centres: [512, 256] × [256, 512] → [512, 512], axis 1 against axis 0 -/

theorem lhs_ctr_0 (j : S512x512.Idx) (q : dot_S512x256_S256x512_S512x512_1_0_0_1_n_n.contr.Idx) :
    (dot_S512x256_S256x512_S512x512_1_0_0_1_n_n.lhsIdx j q 0).val = (j 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem lhs_ctr_1 (j : S512x512.Idx) (q : dot_S512x256_S256x512_S512x512_1_0_0_1_n_n.contr.Idx) :
    (dot_S512x256_S256x512_S512x512_1_0_0_1_n_n.lhsIdx j q 1).val = (q ⟨0, by decide⟩).val :=
  dot_S512x256_S256x512_S512x512_1_0_0_1_n_n.lhsIdx_val_of_single rfl j q
theorem rhs_ctr_0 (j : S512x512.Idx) (q : dot_S512x256_S256x512_S512x512_1_0_0_1_n_n.contr.Idx) :
    (dot_S512x256_S256x512_S512x512_1_0_0_1_n_n.rhsIdx j q 0).val = (q ⟨0, by decide⟩).val :=
  dot_S512x256_S256x512_S512x512_1_0_0_1_n_n.rhsIdx_val_of_single rfl j q
theorem rhs_ctr_1 (j : S512x512.Idx) (q : dot_S512x256_S256x512_S512x512_1_0_0_1_n_n.contr.Idx) :
    (dot_S512x256_S256x512_S512x512_1_0_0_1_n_n.rhsIdx j q 1).val = (j 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- Entry (p, q) of a centres contraction into zero is the sum over the 256 centres of row p of the left operand times
    column q of the right. -/
theorem ctrDot_apply (l : FVec Ideal S512x256 .bf16) (r : FVec Ideal S256x512 .bf16) (p q : Fin 512) :
    matmul dot_S512x256_S256x512_S512x512_1_0_0_1_n_n none l r (constant S512x512 .f32 0x00000000#32) (ix2 p q)
      = ∑ k : Fin 256, l (ix2 p k) * r (ix2 k q) := by
  refine (Ideal.matmul_constant_zero_apply dot_S512x256_S256x512_S512x512_1_0_0_1_n_n none l r (ix2 p q)).trans ?_
  rw [← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 p q) ((contrEquiv1 dot_S512x256_S256x512_S512x512_1_0_0_1_n_n 256 rfl rfl).symm k) = ix2 p k := funext fun a => Fin.ext (by
    match a with
    | ⟨0, _⟩ => exact lhs_ctr_0 _ _
    | ⟨1, _⟩ => exact (lhs_ctr_1 _ _).trans hk)
  have er : dot_S512x256_S256x512_S512x512_1_0_0_1_n_n.rhsIdx (ix2 p q) ((contrEquiv1 dot_S512x256_S256x512_S512x512_1_0_0_1_n_n 256 rfl rfl).symm k) = ix2 k q := funext fun a => Fin.ext (by
    match a with
    | ⟨0, _⟩ => exact (rhs_ctr_0 _ _).trans hk
    | ⟨1, _⟩ => exact rhs_ctr_1 _ _)
  rw [el, er]

/-! ## The sum over a centre's features -/

/-- Entry k of the lane sum of a [256, 512] array is the sum of its row k. -/
theorem rowSum_apply (v : FVec Ideal S256x512 .f32) (hφ : FKind.Formats .f32)
    (hacc : (0x00000000#32 : BitVec (FTy.bits .f32)) = FKind.add.neutral .f32 hφ) (k : Fin 256) :
    multiReduction .add [1] S256 v 0x00000000#32 reduces_S256x512_S256 hφ hacc (ix1 k) = ∑ d : Fin 512, v (ix2 k d) := by
  refine (Ideal.multiReduction_add_single v 0x00000000#32 reduces_S256x512_S256 hφ hacc (ix1 k)).trans ?_
  exact Finset.sum_congr rfl fun d _ => congrArg v (funext fun a => Fin.ext (by match a with | ⟨0, _⟩ => rfl | ⟨1, _⟩ => rfl))

/-! ## The exponent's pointwise shell -/

/-- The kernel's factor exp(−½ · ((M1 − 2·M2) + T↓)) at (p, k), with `T` a single row broadcast down the 512 rows. -/
theorem expShell_apply (M1 M2 : FVec Ideal S512x256 .f32) (T : FVec Ideal S1x256 .f32) (hb : FTy.bits .bf16 < FTy.bits .f32)
    (p : Fin 512) (k : Fin 256) :
    (truncf .bf16 (exp (mulf (broadcast S512x256 (Scalar.ofBits (F := Ideal) .f32 0xBF000000#32))
        (addf (subf M1 (mulf (broadcast S512x256 (Scalar.ofBits (F := Ideal) .f32 0x40000000#32)) M2))
          (broadcastTo S512x256 T broadcasts_S1x256_S512x256)))) hb : FVec Ideal S512x256 .bf16) (ix2 p k)
      = Ideal.exp (mhalf * ((M1 (ix2 p k) - two * M2 (ix2 p k)) + T (ix2 (0 : Fin 1) k))) := by
  show Ideal.exp (mhalf * ((M1 (ix2 p k) - two * M2 (ix2 p k)) + broadcastTo S512x256 T broadcasts_S1x256_S512x256 (ix2 p k))) = _
  rw [broadcastTo_1b_ab_apply]

/-! ## The payloads -/

/-- The centres contraction's result at (p, q): the kernel-weighted sum of softplus weights, over the expanded distance. -/
theorem pay2_apply (x0 : Vec Ideal S512x512 .f32) (x1 x2 x3 : Vec Ideal S256x512 .f32) (p q : Fin 512) :
    k0_pay2 x0 x1 x2 x3 (ix2 p q)
      = ∑ k : Fin 256, Ideal.exp (mhalf * distK (fun d => x0 (ix2 p d)) x1 x2 k) * softplus (x3 (ix2 k q)) := by
  unfold k0_pay2
  refine (ctrDot_apply _ _ p q).trans ?_
  refine Finset.sum_congr rfl fun k _ => ?_
  refine congrArg₂ (· * ·) ?_ ?_
  · refine (expShell_apply _ _ _ _ p k).trans ?_
    unfold distK
    refine congrArg (fun s => Ideal.exp (mhalf * s)) ?_
    refine congrArg₂ (· + ·) (congrArg₂ (fun a b => a - two * b) ?_ ?_) ?_
    · exact featDot_apply _ _ p k
    · exact featDot_apply _ _ p k
    · refine (shapeCast_a_1a_apply _ _ (0 : Fin 1) k).trans ?_
      exact rowSum_apply _ _ _ k
  · rfl

/-- What the body stores at (p, q). -/
theorem pay_apply (x0 : Vec Ideal S512x512 .f32) (x1 x2 x3 : Vec Ideal S256x512 .f32) (p q : Fin 512) :
    k0_pay1 (k0_pay2 x0 x1 x2 x3) (k0_pay3 (F := Ideal)) (ix2 p q)
      = outOf (distK (fun d => x0 (ix2 p d)) x1 x2) x3 q := by
  show Ideal.div one (k0_pay2 x0 x1 x2 x3 (ix2 p q) + eps) = _
  unfold outOf
  exact congrArg (fun s => Ideal.div one (s + eps)) (pay2_apply x0 x1 x2 x3 p q)

end Cert.KernelIdeal.BodyValue

end
-- ==== Proof.ArrValue.lean ====
/-
  From the body's block to the whole result array.

  Grid point `t` (of four) stages rows 512·t … 512·t + 511 of the input and the three parameter arrays whole, and writes
  back rows 512·t … 512·t + 511 of the result. Since entry (p, q) of the body's output depends on the input only through
  ITS row p, block `t` of the result is block `t` of the whole-array function `GK` of the argument arrays; the four blocks
  tile the 2048 rows (row r lies in block r / 512), so after the run the result array IS `GK`.
-/
import proofs.«160673_j28097676050903_1_alg».proof.Proof.Gen.KernelIdeal.Value
import proofs.«160673_j28097676050903_1_alg».proof.Proof.BodyValue

set_option maxRecDepth 16384

noncomputable section

namespace Cert.KernelIdeal.ArrValue

open Cert.KernelIdeal Cert.KernelIdeal.Gen Cert.KernelIdeal.Value Cert.KernelIdeal.BodyValue Cert.RbfSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- The body's output at block index `j` is `GK` of the whole arrays at array index `i`, whenever `i` and `j` name the same
    column, the block's row `j 0` of the staged input is row `i 0` of the input array, and the three staged parameter
    blocks are the parameter arrays. -/
theorem block_entry (X : SBD.Idx → EReal) (C BW W : SKD.Idx → EReal)
    (x0 : Vec Ideal S512x512 .f32) (x1 x2 x3 : Vec Ideal S256x512 .f32) (j : S512x512.Idx) (i : SBD.Idx)
    (hi1 : (i 1).val = (j 1).val)
    (h0 : ∀ d : Fin 512, x0 (ix2 (⟨(j 0).val, (j 0).isLt⟩ : Fin 512) d) = X (ix2 (⟨(i 0).val, (i 0).isLt⟩ : Fin 2048) d))
    (h1 : ∀ y, x1 y = C y) (h2 : ∀ y, x2 y = BW y) (h3 : ∀ y, x3 y = W y) :
    k0_pay1 (k0_pay2 x0 x1 x2 x3) (k0_pay3 (F := Ideal)) j = GK X C BW W i := by
  obtain rfl : x1 = C := funext h1
  obtain rfl : x2 = BW := funext h2
  obtain rfl : x3 = W := funext h3
  have hj : j = ix2 (⟨(j 0).val, (j 0).isLt⟩ : Fin 512) (⟨(j 1).val, (j 1).isLt⟩ : Fin 512) :=
    funext fun a => Fin.ext (by match a with | ⟨0, _⟩ => rfl | ⟨1, _⟩ => rfl)
  refine (congrArg (k0_pay1 (k0_pay2 x0 x1 x2 x3) (k0_pay3 (F := Ideal))) hj).trans ?_
  refine (pay_apply x0 x1 x2 x3 _ _).trans ?_
  unfold GK
  have hq : (⟨(j 1).val, (j 1).isLt⟩ : Fin 512) = ⟨(i 1).val, (i 1).isLt⟩ := Fin.ext hi1.symm
  rw [hq, show (fun d => x0 (ix2 (⟨(j 0).val, (j 0).isLt⟩ : Fin 512) d)) = (fun d => X (ix2 (⟨(i 0).val, (i 0).isLt⟩ : Fin 2048) d)) from funext h0]

/-- The printed index maps, decided over the four grid points: the input's and the result's windows sit at block row `t`,
    block column 0; the three parameter windows stay at block (0, 0). -/
theorem idx_facts : ∀ t : Fin cfg0.N, win0_0.index t (0 : Fin 2) = win0_4.index t (0 : Fin 2)
    ∧ win0_0.index t (1 : Fin 2) = 0 ∧ win0_4.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 3 :=
  (by decide +kernel : ∀ t : Fin grid0.N, _)

/-- Every block row is some grid point's. -/
theorem idx_onto : ∀ q0 : Fin 4, ∃ t : Fin cfg0.N, win0_4.index t = ![q0.val, 0] :=
  (by decide +kernel : ∀ q0 : Fin 4, ∃ t : Fin grid0.N, win0_4.index t = ![q0.val, 0])

/-- WHAT POINT `t` WRITES BACK is block `t` of `GK` of the argument arrays as the region finds them. -/
theorem flushed_eq (c : Dev nD) (t : Fin cfg0.N) :
    (dats m 0 c).flushed 4 t
      = ((cfg0.win 4).blk t).view.read (Elt Ideal) (GK (V m c main_arg0) (V m c main_arg1) (V m c main_arg2) (V m c main_arg3)) := by
  rw [Value.flushed4]
  unfold out0_4
  rw [View.canon_unit_zero origin_zero]
  simp only [View.ld_unit_zero (S := S512x512) origin_zero, View.ld_unit_zero (S := S256x512) origin_zero]
  obtain ⟨e00, e01, e41, e10, e11, e20, e21, e30, e31, -⟩ := idx_facts t
  funext j
  show k0_pay1 (k0_pay2 (iblk m c 0 t) (iblk m c 1 t) (iblk m c 2 t) (iblk m c 3 t)) (k0_pay3 (F := Ideal)) j
      = GK (V m c main_arg0) (V m c main_arg1) (V m c main_arg2) (V m c main_arg3) (((cfg0.win 4).blk t).view.emb j)
  refine block_entry (V m c main_arg0) (V m c main_arg1) (V m c main_arg2) (V m c main_arg3)
    (iblk m c 0 t) (iblk m c 1 t) (iblk m c 2 t) (iblk m c 3 t) j (((cfg0.win 4).blk t).view.emb j) ?_ ?_ ?_ ?_ ?_
  · show win0_4.index t (1 : Fin 2) * 512 + 1 * (j 1).val = (j 1).val
    omega
  · intro d
    show V m c main_arg0 (((cfg0.win 0).blk t).view.emb (ix2 (⟨(j 0).val, (j 0).isLt⟩ : Fin 512) d)) = V m c main_arg0 _
    refine congrArg (V m c main_arg0) (funext fun a => Fin.ext ?_)
    match a with
    | ⟨0, _⟩ => show win0_0.index t (0 : Fin 2) * 512 + 1 * (j 0).val = win0_4.index t (0 : Fin 2) * 512 + 1 * (j 0).val; omega
    | ⟨1, _⟩ => show win0_0.index t (1 : Fin 2) * 512 + 1 * d.val = d.val; omega
  · intro y
    show V m c main_arg1 (((cfg0.win 1).blk t).view.emb y) = V m c main_arg1 y
    refine congrArg (V m c main_arg1) (funext fun a => Fin.ext ?_)
    match a with
    | ⟨0, _⟩ => show win0_1.index t (0 : Fin 2) * 256 + 1 * (y 0).val = (y 0).val; omega
    | ⟨1, _⟩ => show win0_1.index t (1 : Fin 2) * 512 + 1 * (y 1).val = (y 1).val; omega
  · intro y
    show V m c main_arg2 (((cfg0.win 2).blk t).view.emb y) = V m c main_arg2 y
    refine congrArg (V m c main_arg2) (funext fun a => Fin.ext ?_)
    match a with
    | ⟨0, _⟩ => show win0_2.index t (0 : Fin 2) * 256 + 1 * (y 0).val = (y 0).val; omega
    | ⟨1, _⟩ => show win0_2.index t (1 : Fin 2) * 512 + 1 * (y 1).val = (y 1).val; omega
  · intro y
    show V m c main_arg3 (((cfg0.win 3).blk t).view.emb y) = V m c main_arg3 y
    refine congrArg (V m c main_arg3) (funext fun a => Fin.ext ?_)
    match a with
    | ⟨0, _⟩ => show win0_3.index t (0 : Fin 2) * 256 + 1 * (y 0).val = (y 0).val; omega
    | ⟨1, _⟩ => show win0_3.index t (1 : Fin 2) * 512 + 1 * (y 1).val = (y 1).val; omega

/-- An index of the result array is in point `t`'s block iff each coordinate is in the block's range on its axis. -/
theorem mem_blk (t : Fin cfg0.N) (i : S2048x512.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v0).slice (win0_4.rect t)).set ↔ _
  rw [View.set_slice_whole, Rect.mem_set_unit]
  exact Iff.rfl

/-- The four blocks cover the array: row `r` lies in the block of point `r / 512`. -/
theorem covered (i : S2048x512.Idx) : ∃ t : Fin cfg0.N, (cfg0.win 4).flush t = true ∧ i ∈ ((cfg0.win 4).blk t).view.set := by
  have hi0 : (i 0).val < 2048 := (i 0).isLt
  have hi1 : (i 1).val < 512 := (i 1).isLt
  obtain ⟨t, ht⟩ := idx_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-- THE ARRAY after the run is `GK` of the argument arrays. -/
theorem final (c : Dev nD) : (dats m 0 c).arrAt 4 cfg0.N
    = GK (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) covered

/-- The kernel's run, read: the result array ends at `GK` of the arguments, the arguments unchanged. -/
theorem run : θ_run defs (onTc (τ := τ) (main (F := Ideal))) ⟨m, fun _ => 0, ρ⟩ fun r => ∀ c : Dev nD,
      r.2.mem ((c : Thread nD τ).loc main_v0)
        = GK (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrValue

end
-- ==== Proof.RefValue.lean ====
/-
  The reference's result, index by index: its last stage (the quotient `1 / (h + ε)`) read back through the matrix
  product `h[b,q] = ∑_k rbf[b,k] · softplus(w)[k,q]`, the exponential `rbf[b,k] = exp(−½ · dist[b,k])` and the sum over
  the features `dist[b,k] = 0 + ∑_d (x[b,d] − c[k,d])² · bw[k,d]` of the broadcast difference, is the specification `GR`.
  Nothing here needs finiteness: it is the same sums over the same indices, the broadcasts' index maps composed.
-/
import proofs.«160673_j28097676050903_1_alg».proof.Proof.Gen.ReferenceIdeal.Read
import proofs.«160673_j28097676050903_1_alg».proof.Proof.Spec

noncomputable section

namespace Cert.ReferenceIdeal.RefValue

open Cert.ReferenceIdeal Cert.ReferenceIdeal.Gen Cert.ReferenceIdeal.Read Cert.RbfSpec
open Idealize.ShloMosaic Idealize.ShloMosaic.ValueIdx
open scoped BigOperators

/-- The reference's result array is `GR` of its four arguments. -/
theorem result_eq_GR (x0 : (⟨S2048x512, .f32⟩ : BufTy).Contents (Elt Ideal)) (x1 x2 x3 : (⟨S256x512, .f32⟩ : BufTy).Contents (Elt Ideal)) :
    val_main_v18 (F := Ideal) x0 x1 x2 x3 = GR x0 x1 x2 x3 := by
  funext i
  rw [val_main_v18_apply, val_main_v17_apply, val_main_cst_2_apply, val_main_v16_apply, val_main_v15_apply, val_main_cst_1_apply,
    val_main_v14_apply]
  show Ideal.div one ((∑ k : Fin 256, val_main_v12 (F := Ideal) x0 x1 x2 (lidx_main_v14 i k) * val_main_v13 (F := Ideal) x3 (ridx_main_v14 i k)) + eps) = _
  unfold GR outOf
  refine congrArg (fun s => Ideal.div one (s + eps)) (Finset.sum_congr rfl fun k _ => ?_)
  refine congrArg₂ (· * ·) ?_ ?_
  · -- the exponential of −½ times the distance of row `i 0` to centre `k`
    rw [val_main_v12_apply, val_main_v11_apply, val_main_v10_apply, val_main_cst_0_apply, val_main_v9_apply, val_main_cst_apply]
    show Ideal.exp (mhalf * (zero + ∑ d : Fin 512, val_main_v8 (F := Ideal) x0 x1 x2 (idx_main_v9 (lidx_main_v14 i k) d))) = _
    unfold distR
    refine congrArg (fun s => Ideal.exp (mhalf * (zero + s))) (Finset.sum_congr rfl fun d _ => ?_)
    rw [val_main_v8_apply, val_main_v5_apply, val_main_v4_apply, val_main_v2_apply, val_main_v0_apply, val_main_v3_apply,
      val_main_v1_apply, val_main_v7_apply, val_main_v6_apply]
    have e0 : idx_main_v0 (idx_main_v2 (idx_main_v9 (lidx_main_v14 i k) d)) = ix2 (⟨(i 0).val, (i 0).isLt⟩ : Fin 2048) d :=
      funext fun a => Fin.ext (by match a with | ⟨0, _⟩ => rfl | ⟨1, _⟩ => rfl)
    have e1 : idx_main_v1 (idx_main_v3 (idx_main_v9 (lidx_main_v14 i k) d)) = ix2 k d :=
      funext fun a => Fin.ext (by match a with | ⟨0, _⟩ => rfl | ⟨1, _⟩ => rfl)
    have e2 : idx_main_v6 (idx_main_v7 (idx_main_v9 (lidx_main_v14 i k) d)) = ix2 k d :=
      funext fun a => Fin.ext (by match a with | ⟨0, _⟩ => rfl | ⟨1, _⟩ => rfl)
    rw [e0, e1, e2]
    rfl
  · -- the softplus of the raw weight at (k, i 1)
    rw [val_main_v13_apply, val_main_call0_v4_apply, val_main_call0_v6_apply, val_main_call0_v11_apply, val_main_call0_v1_apply,
      val_main_call0_v10_apply, val_main_call0_v9_apply, val_main_call0_v8_apply, val_main_call0_v7_apply, val_main_call0_v3_apply,
      val_main_call0_v2_apply, val_main_call0_v0_apply, val_main_call0_v5_apply, val_main_call0_cst_apply]
    have er : ridx_main_v14 i k = ix2 k (⟨(i 1).val, (i 1).isLt⟩ : Fin 512) :=
      funext fun a => Fin.ext (by match a with | ⟨0, _⟩ => rfl | ⟨1, _⟩ => rfl)
    rw [er]
    exact softplus_neg_form _

end Cert.ReferenceIdeal.RefValue

end
-- ==== Proof.Finite.lean ====
/-
  From the precondition to real entries. The precondition is the conjunction, over the four arguments, of
  "every entry's absolute value is below +∞" (an `and`-reduction of the entrywise comparison to a single bit). Read at
  the extended reals: `max x (−x) < ⊤` rules out both infinities, so every entry is (the coercion of) a real number.
-/
import proofs.«160673_j28097676050903_1_alg».proof.Pre_finite_inputs
import Idealize.ShloMosaic.PureOps.Ideal
import Idealize.ShloMosaic.Lib.ValueIdx
import Idealize.ShloMosaic.Lib.ReduceAll

noncomputable section

namespace Cert.Pre_finite_inputs.Real

open Cert.Pre_finite_inputs Idealize.ShloMosaic

/-- The word `0x7F800000` is +∞. -/
theorem inf_word : Ideal.ofBits .f32 0x7F800000#32 = (⊤ : EReal) := by simp [Ideal.ofBits, Ideal.ieee]

/-- An extended real whose absolute value compares below the +∞ word is a real number. -/
theorem real_of_abs_lt_inf (x : EReal) (h : Ideal.cmp .olt (max x (-x)) (Ideal.ofBits .f32 0x7F800000#32) = 1#1) :
    ∃ r : ℝ, x = (r : EReal) := by
  rw [inf_word] at h
  have hlt : max x (-x) < ⊤ := by
    by_contra hn
    unfold Ideal.cmp at h
    simp [hn] at h
  induction x using EReal.rec with
  | bot => simp at hlt
  | coe r => exact ⟨r, rfl⟩
  | top => simp at hlt

instance : Subsingleton S_.Idx := ⟨fun a b => funext fun d => d.elim0⟩

variable [Facts]

/-- Under the precondition every entry of every argument is a real number. -/
theorem real_of_pre (a0 : FVec Ideal S2048x512 .f32) (a1 a2 a3 : FVec Ideal S256x512 .f32)
    (h : fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  unfold fn fn_part1 at h0
  dsimp only at h0
  obtain ⟨h012, h3⟩ := IntOp.andi_eq_one.mp h0
  obtain ⟨h01, h2⟩ := IntOp.andi_eq_one.mp h012
  obtain ⟨hx, h1⟩ := IntOp.andi_eq_one.mp h01
  exact ⟨fun i => real_of_abs_lt_inf _ (Host.reduce_andi_all _ _ _ _ _ hx i),
    fun i => real_of_abs_lt_inf _ (Host.reduce_andi_all _ _ _ _ _ h1 i),
    fun i => real_of_abs_lt_inf _ (Host.reduce_andi_all _ _ _ _ _ h2 i),
    fun i => real_of_abs_lt_inf _ (Host.reduce_andi_all _ _ _ _ _ h3 i)⟩

end Cert.Pre_finite_inputs.Real

end
-- ==== Proof.lean ====
/-
  A radial-basis metric: for inputs x (2048 × 512), centres c, bandwidths b and raw weights w (each 256 × 512) both
  programs compute
      out[r, q] = 1 / ( ∑_k exp(−½ · dist[r, k]) · softplus(w[k, q]) + ε ),     dist[r, k] = ∑_d b[k, d] · (x[r, d] − c[k, d])².
  The reference forms the 2048 × 256 × 512 difference and sums it; the kernel, four row blocks at a time, expands the square
  into two matrix products and a row sum, dist = ∑ x²·b − 2·∑ x·(c·b) + ∑ c²·b. Over the extended reals the roundings to
  bf16 are the identity, a matrix product into zero is a plain sum, and softplus, exp and the reciprocal are the same
  functions on both sides with the same literal words; what is left is the binomial square, which holds term by term on
  real entries and is where finiteness of the inputs is used (the expansion fails at infinities).

  The pieces: Proof/Spec.lean states both forms (`GK`, `GR`) and proves the law; Proof/BodyValue.lean reads the kernel
  body at an index; Proof/ArrValue.lean tiles the four blocks into the whole array; Proof/RefValue.lean reads the reference
  index by index; Proof/Finite.lean turns the precondition into "every entry is a real".
-/
import proofs.«160673_j28097676050903_1_alg».proof.Defs
import proofs.«160673_j28097676050903_1_alg».proof.Proof.Gen.Kernel
import proofs.«160673_j28097676050903_1_alg».proof.Proof.Gen.Kernel.Skeleton
import proofs.«160673_j28097676050903_1_alg».proof.Proof.Gen.Kernel.Launch
import proofs.«160673_j28097676050903_1_alg».proof.Proof.Gen.Kernel.Points
import proofs.«160673_j28097676050903_1_alg».proof.Proof.Gen.Kernel.Frame
import proofs.«160673_j28097676050903_1_alg».proof.Proof.Gen.KernelIdeal
import proofs.«160673_j28097676050903_1_alg».proof.Proof.Gen.KernelIdeal.Skeleton
import proofs.«160673_j28097676050903_1_alg».proof.Proof.Gen.KernelIdeal.Launch
import proofs.«160673_j28097676050903_1_alg».proof.Proof.Gen.KernelIdeal.Points
import proofs.«160673_j28097676050903_1_alg».proof.Proof.Gen.KernelIdeal.Frame
import proofs.«160673_j28097676050903_1_alg».proof.Proof.Gen.ReferenceIdeal
import proofs.«160673_j28097676050903_1_alg».proof.Proof.Gen.Pre_finite_inputs
import proofs.«160673_j28097676050903_1_alg».proof.Proof.Gen.KernelIdeal.Value
import proofs.«160673_j28097676050903_1_alg».proof.Proof.Gen.ReferenceIdeal.Run
import proofs.«160673_j28097676050903_1_alg».proof.Proof.Gen.ReferenceIdeal.Read
import proofs.«160673_j28097676050903_1_alg».proof.Proof.Spec
import proofs.«160673_j28097676050903_1_alg».proof.Proof.BodyValue
import proofs.«160673_j28097676050903_1_alg».proof.Proof.ArrValue
import proofs.«160673_j28097676050903_1_alg».proof.Proof.RefValue
import proofs.«160673_j28097676050903_1_alg».proof.Proof.Finite
import Idealize.ShloMosaic.Adequacy
import Idealize.ShloMosaic.Init

noncomputable section

namespace Cert.Proof

open Idealize.ShloMosaic Idealize.SL.Sem Cert.Kernel

/-- The word-level kernel runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the distance-as-one-sum form `GR` of the arguments: the reference directly, the kernel at the
    expanded form `GK`, which is `GR` because the precondition makes every entry a real. -/
theorem algebraic : Cert.algebraic_KernelIdeal_ReferenceIdeal := by
  intro m ρ m' ρ' hpre hagree
  refine ⟨fun c => Cert.RbfSpec.GR (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (Cert.KernelIdeal.ArrValue.run m ρ)
    obtain ⟨hx, hc, hb, -⟩ := Cert.Pre_finite_inputs.Real.real_of_pre _ _ _ _ (hpre c)
    exact Cert.RbfSpec.GK_eq_GR _ _ _ _ hx hc hb
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v18_eq, Cert.ReferenceIdeal.RefValue.result_eq_GR,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
